-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x32 : Shape := ⟨2, ![128, 32]⟩
abbrev S32 : Shape := ⟨1, ![32]⟩
abbrev S32x32 : Shape := ⟨2, ![32, 32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_

variable [Facts]

def fn_part1 {F : FTy → Type} [FloatOps F] (main_arg5 : FVec F S32x32 .f32) (main_arg6 : FVec F S32 .f32) (main_arg7 : FVec F S32x32 .f32) (main_v13 : IVec S_ 1) (main_v16 : IVec S128x32 1) : IVec S_ 1 :=
  let main_c_5 : IVec S_ 1 := constantI S_ 1 1#1
  let main_v17 : IVec S_ 1 := (fun x v => Host.reduce IntOp.andi x v reducesTo_S128x32_S_d0_1 h_S_) main_v16 main_c_5
  let main_v18 : IVec S_ 1 := andi main_v13 main_v17
  let main_v19 : FVec F S32x32 .f32 := Host.absf main_arg5
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x32 .f32 := Host.absf main_arg7
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x32 .f32) (main_arg3 : FVec F S32 .f32) (main_arg4 : FVec F S128x32 .f32) (main_arg5 : FVec F S32x32 .f32) (main_arg6 : FVec F S32 .f32) (main_arg7 : FVec F S32x32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x32 .f32 := Host.absf main_arg2
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S128x32 .f32 := Host.absf main_arg4
  let main_cst_4 : FVec F S_ .f32 := constant S_ .f32 0x7F800000#32
  let main_v15 : FVec F S128x32 .f32 := broadcastInDim S128x32 ![] bcast_S_S128x32 main_cst_4
  let main_v16 : IVec S128x32 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x32 : Shape := ⟨2, ![128, 32]⟩
abbrev S32 : Shape := ⟨1, ![32]⟩
abbrev S32x32 : Shape := ⟨2, ![32, 32]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S100000x32 : Shape := ⟨2, ![100000, 32]⟩
abbrev S5000x128 : Shape := ⟨2, ![5000, 128]⟩
abbrev S5000x1 : Shape := ⟨2, ![5000, 1]⟩
abbrev S5000x32 : Shape := ⟨2, ![5000, 32]⟩
abbrev S1x32 : Shape := ⟨2, ![1, 32]⟩
abbrev S1600000x32 : Shape := ⟨2, ![1600000, 32]⟩
abbrev S10000x32 : Shape := ⟨2, ![10000, 32]⟩
abbrev S10000x1 : Shape := ⟨2, ![10000, 1]⟩

abbrev nBuf : Space → Nat
  | .hbm => 48
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x32, .f32⟩
  | .hbm, ⟨3, _⟩ => ⟨S32, .f32⟩
  | .hbm, ⟨4, _⟩ => ⟨S128x32, .f32⟩
  | .hbm, ⟨5, _⟩ => ⟨S32x32, .f32⟩
  | .hbm, ⟨6, _⟩ => ⟨S32, .f32⟩
  | .hbm, ⟨7, _⟩ => ⟨S32x32, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x128, .f32⟩
  | .hbm, ⟨27, _⟩ => ⟨S_, .f32⟩
  | .hbm, ⟨28, _⟩ => ⟨S100000x128, .f32⟩
  | .hbm, ⟨29, _⟩ => ⟨S1600000x1, .i32⟩
  | .hbm, ⟨30, _⟩ => ⟨S100000x128, .f32⟩
  | .hbm, ⟨31, _⟩ => ⟨S100000x1, .f32⟩
  | .hbm, ⟨32, _⟩ => ⟨S100000x32, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x32, .f32⟩
  | .hbm, ⟨42, _⟩ => ⟨S_, .f32⟩
  | .hbm, ⟨43, _⟩ => ⟨S100000x32, .f32⟩
  | .hbm, ⟨44, _⟩ => ⟨S1600000x1, .i32⟩
  | .hbm, ⟨45, _⟩ => ⟨S100000x32, .f32⟩
  | .hbm, ⟨46, _⟩ => ⟨S100000x1, .f32⟩
  | .hbm, ⟨47, _⟩ => ⟨S100000x32, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x32, .f32⟩
  | .local _ .vmem, ⟨7, _⟩ => ⟨S32, .f32⟩
  | .local _ .vmem, ⟨8, _⟩ => ⟨S128x32, .f32⟩
  | .local _ .vmem, ⟨9, _⟩ => ⟨S5000x32, .f32⟩
  | .local _ .vmem, ⟨10, _⟩ => ⟨S5000x32, .f32⟩
  | .local _ .vmem, ⟨11, _⟩ => ⟨S10000x32, .f32⟩
  | .local _ .vmem, ⟨12, _⟩ => ⟨S10000x32, .f32⟩
  | .local _ .vmem, ⟨13, _⟩ => ⟨S10000x32, .f32⟩
  | .local _ .vmem, ⟨14, _⟩ => ⟨S10000x32, .f32⟩
  | .local _ .vmem, ⟨15, _⟩ => ⟨S10000x1, .f32⟩
  | .local _ .vmem, ⟨16, _⟩ => ⟨S10000x1, .f32⟩
  | .local _ .vmem, ⟨17, _⟩ => ⟨S32x32, .f32⟩
  | .local _ .vmem, ⟨18, _⟩ => ⟨S32, .f32⟩
  | .local _ .vmem, ⟨19, _⟩ => ⟨S32x32, .f32⟩
  | .local _ .vmem, ⟨20, _⟩ => ⟨S10000x32, .f32⟩
  | .local _ .vmem, ⟨21, _⟩ => ⟨S10000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S32x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x32 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S100000_S100000x1 : S100000.ShapeCasts S100000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S5000x1_S5000x128 : S5000x1.Broadcasts S5000x128
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S32_S32_0 : ∀ a, (![0] : Fin 1 → Nat) a + S32.size a ≤ S32.size a
  h_S32 : 0 < S32.numel
  shapeCasts_S32_S1x32 : S32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  bcast_S_S100000x32 : S_.BroadcastsInDim S100000x32 (![] : Fin 0 → Fin S100000x32.rank)
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  broadcasts_S10000x1_S10000x32 : S10000x1.Broadcasts S10000x32
  inb_S32x32_S32x32_0_0 : ∀ a, (![0, 0] : Fin 2 → Nat) a + S32x32.size a ≤ S32x32.size a
  h_S32x32 : 0 < S32x32.numel
  broadcasts_S1x32_S10000x32 : S1x32.Broadcasts S10000x32
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x32_S5000x32_1_0_0_1_n_n_wf : DotDims.WF S5000x128 S128x32 S5000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S10000x32_S32x32_S10000x32_1_0_0_1_n_n_wf : DotDims.WF S10000x32 S32x32 S10000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x32.size a ≤ S128x32.size a
  hwx0_3 : ∀ i : grid0.Coords, EltTy.bits .f32 = 32 ∨ (Rect.block (s := S128x32) S128x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32.size a ≤ S32.size a
  hwx0_4 : ∀ i : grid0.Coords, EltTy.bits .f32 = 32 ∨ (Rect.block (s := S32) S32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x32.size a ≤ S128x32.size a
  hwx0_5 : ∀ i : grid0.Coords, EltTy.bits .f32 = 32 ∨ (Rect.block (s := S128x32) S128x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x32.size a ≤ S100000x32.size a
  hwx0_6 : ∀ i : grid0.Coords, EltTy.bits .f32 = 32 ∨ (Rect.block (s := S100000x32) S5000x32.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x32.size a ≤ S100000x32.size a
  hwx1_1 : ∀ i : grid1.Coords, EltTy.bits .f32 = 32 ∨ (Rect.block (s := S100000x32) S10000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x32.size a ≤ S32x32.size a
  hwx1_3 : ∀ i : grid1.Coords, EltTy.bits .f32 = 32 ∨ (Rect.block (s := S32x32) S32x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32.size a ≤ S32.size a
  hwx1_4 : ∀ i : grid1.Coords, EltTy.bits .f32 = 32 ∨ (Rect.block (s := S32) S32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x32.size a ≤ S32x32.size a
  hwx1_5 : ∀ i : grid1.Coords, EltTy.bits .f32 = 32 ∨ (Rect.block (s := S32x32) S32x32.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x32.size a ≤ S100000x32.size a
  hwx1_6 : ∀ i : grid1.Coords, EltTy.bits .f32 = 32 ∨ (Rect.block (s := S100000x32) S10000x32.size (cc1_transform_6 i) (hinb1_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S5000x32.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v19) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S10000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S32x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S32x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v31) S10000x32.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x32 : Shape := ⟨2, ![128, 32]⟩
abbrev S32 : Shape := ⟨1, ![32]⟩
abbrev S32x32 : Shape := ⟨2, ![32, 32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S100000x32 : Shape := ⟨2, ![100000, 32]⟩
abbrev S1x32 : Shape := ⟨2, ![1, 32]⟩
abbrev S1600000x32 : Shape := ⟨2, ![1600000, 32]⟩

abbrev nBuf : Space → Nat
  | .hbm => 80
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x32, .f32⟩
  | .hbm, ⟨3, _⟩ => ⟨S32, .f32⟩
  | .hbm, ⟨4, _⟩ => ⟨S128x32, .f32⟩
  | .hbm, ⟨5, _⟩ => ⟨S32x32, .f32⟩
  | .hbm, ⟨6, _⟩ => ⟨S32, .f32⟩
  | .hbm, ⟨7, _⟩ => ⟨S32x32, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x32, .f32⟩
  | .hbm, ⟨38, _⟩ => ⟨S1x32, .f32⟩
  | .hbm, ⟨39, _⟩ => ⟨S100000x32, .f32⟩
  | .hbm, ⟨40, _⟩ => ⟨S100000x32, .f32⟩
  | .hbm, ⟨41, _⟩ => ⟨S100000x32, .f32⟩
  | .hbm, ⟨42, _⟩ => ⟨S100000x32, .f32⟩
  | .hbm, ⟨43, _⟩ => ⟨S_, .f32⟩
  | .hbm, ⟨44, _⟩ => ⟨S100000x32, .f32⟩
  | .hbm, ⟨45, _⟩ => ⟨S100000x32, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x32, .f32⟩
  | .hbm, ⟨55, _⟩ => ⟨S_, .f32⟩
  | .hbm, ⟨56, _⟩ => ⟨S100000x32, .f32⟩
  | .hbm, ⟨57, _⟩ => ⟨S1600000x1, .i32⟩
  | .hbm, ⟨58, _⟩ => ⟨S100000x32, .f32⟩
  | .hbm, ⟨59, _⟩ => ⟨S_, .f32⟩
  | .hbm, ⟨60, _⟩ => ⟨S1600000, .f32⟩
  | .hbm, ⟨61, _⟩ => ⟨S_, .f32⟩
  | .hbm, ⟨62, _⟩ => ⟨S100000, .f32⟩
  | .hbm, ⟨63, _⟩ => ⟨S1600000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x32, .f32⟩
  | .hbm, ⟨70, _⟩ => ⟨S100000x32, .f32⟩
  | .hbm, ⟨71, _⟩ => ⟨S100000x32, .f32⟩
  | .hbm, ⟨72, _⟩ => ⟨S1x32, .f32⟩
  | .hbm, ⟨73, _⟩ => ⟨S100000x32, .f32⟩
  | .hbm, ⟨74, _⟩ => ⟨S100000x32, .f32⟩
  | .hbm, ⟨75, _⟩ => ⟨S100000x32, .f32⟩
  | .hbm, ⟨76, _⟩ => ⟨S100000x32, .f32⟩
  | .hbm, ⟨77, _⟩ => ⟨S_, .f32⟩
  | .hbm, ⟨78, _⟩ => ⟨S100000x32, .f32⟩
  | .hbm, ⟨79, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_call1_cst : Ref sig .tc := ⟨.hbm, 77, rfl⟩
abbrev main_call1_v0 : Ref sig .tc := ⟨.hbm, 78, rfl⟩
abbrev main_v55 : Ref sig .tc := ⟨.hbm, 79, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x32_S100000x32_1_0_0_1_n_n_wf : DotDims.WF S100000x128 S128x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x32_S100000x32_1_0_0_1_n_n_wf : DotDims.WF S100000x32 S32x32 S100000x32 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf

class Facts : Prop extends Facts₀ where

variable [Facts]
-- ==== Proof.Spec.lean ====
/-
  Two graph-convolution layers with mean aggregation, as ONE function of the arguments, index by index.

  A layer takes node features `x` (N rows), the row sums `s` of the neighbours' features, the in-degree `d` of
  each node, two weight matrices and a bias, and gives, at row `r` and column `j`,
      max ( Σ_k (s[r,k] / max(d[r], 1)) · Wl[k,j]  +  b[j]  +  Σ_k x[r,k] · Wr[k,j] ,  0 ).
  Row `r` of the result depends on row `r` of `x`, `s`, `d` only, so a block of rows of the result is the same
  formula of the same block of rows of the operands (`layerAt_rows`).

  The neighbour sums and the degrees are host computations on the edge list that both programs spell the same way:
  they are named here once (`srcIx`, `dstIx`, `degs`, `degCol`, `agg1`, `agg2`) and never opened.
-/
import proofs.«137877_j34634616274989_1_alg».proof.Proof.Gen.KernelIdeal
import Idealize.ShloMosaic.PureOps.Ideal
import Idealize.ShloMosaic.Lib.ValueIdx

noncomputable section

namespace Cert.Sage

open Idealize.ShloMosaic Idealize.ShloMosaic.ValueIdx Cert.KernelIdeal Cert.KernelIdeal.Facts₀

/-- One layer at row `r`, column `j`: the mean of the neighbours' rows (their sum over the degree, at least one)
    through `Wl`, the bias, the node's own row through `Wr`, clipped below at zero. `dv r` is row `r`'s degree. -/
def layerAt {N D : Nat} (x s : FVec Ideal ⟨2, ![N, D]⟩ .f32) (dv : Fin N → EReal)
    (Wl Wr : FVec Ideal ⟨2, ![D, 32]⟩ .f32) (b : FVec Ideal ⟨1, ![32]⟩ .f32) (r : Fin N) (j : Fin 32) : EReal :=
  max ((∑ k : Fin D, Ideal.div (s (ix2 r k)) (max (dv r) (Ideal.ofBits .f32 0x3F800000#32)) * Wl (ix2 k j)) + b (ix1 j)
        + ∑ k : Fin D, x (ix2 r k) * Wr (ix2 k j)) (Ideal.ofBits .f32 0x00000000#32)

/-- A layer's value at a row depends on that row of the operands only: rows `r` of one triple and `r'` of another
    that agree give the same value. -/
theorem layerAt_rows {N N' D : Nat} (x s : FVec Ideal ⟨2, ![N, D]⟩ .f32) (dv : Fin N → EReal)
    (x' s' : FVec Ideal ⟨2, ![N', D]⟩ .f32) (dv' : Fin N' → EReal)
    (Wl Wr : FVec Ideal ⟨2, ![D, 32]⟩ .f32) (b : FVec Ideal ⟨1, ![32]⟩ .f32) (r : Fin N) (r' : Fin N') (j : Fin 32)
    (hx : ∀ k, x (ix2 r k) = x' (ix2 r' k)) (hs : ∀ k, s (ix2 r k) = s' (ix2 r' k)) (hd : dv r = dv' r') :
    layerAt x s dv Wl Wr b r j = layerAt x' s' dv' Wl Wr b r' j := by
  unfold layerAt
  rw [hd]
  simp only [hx, hs]

/-- The first layer on the whole arrays: 100000 nodes, 128 features in, 32 out; the degrees as a column. -/
def layer1 (x s : FVec Ideal S100000x128 .f32) (d : FVec Ideal S100000x1 .f32) (Wl : FVec Ideal S128x32 .f32)
    (b : FVec Ideal S32 .f32) (Wr : FVec Ideal S128x32 .f32) : FVec Ideal S100000x32 .f32 :=
  fun i => layerAt x s (fun r => d (ix2 r 0)) Wl Wr b (i 0) (i 1)

/-- The second layer on the whole arrays: 32 features in, 32 out. -/
def layer2 (x s : FVec Ideal S100000x32 .f32) (d : FVec Ideal S100000x1 .f32) (Wl : FVec Ideal S32x32 .f32)
    (b : FVec Ideal S32 .f32) (Wr : FVec Ideal S32x32 .f32) : FVec Ideal S100000x32 .f32 :=
  fun i => layerAt x s (fun r => d (ix2 r 0)) Wl Wr b (i 0) (i 1)

/-! ## The edge list's host computations, named -/

/-- The edges' destination nodes (row 1 of the edge list), as a column of scatter indices. -/
def dstIx (e : IVec S2x1600000 32) : IVec S1600000x1 32 :=
  broadcastInDim S1600000x1 ![0] bcast_S1600000_S1600000x1_0
    (shapeCast _ (extractStridedSlice S1x1600000 ![1, 0] e slices_S2x1600000_S1x1600000_1_0) shapeCasts_S1x1600000_S1600000)

/-- The edges' source nodes (row 0 of the edge list), as a vector. -/
def srcVec (e : IVec S2x1600000 32) : IVec S1600000 32 :=
  shapeCast _ (extractStridedSlice S1x1600000 ![0, 0] e slices_S2x1600000_S1x1600000_0_0) shapeCasts_S1x1600000_S1600000

/-- The source nodes with a negative index wrapped by the node count, as a column of gather indices. -/
def srcIx (e : IVec S2x1600000 32) : IVec S1600000x1 32 :=
  broadcastInDim S1600000x1 ![0] bcast_S1600000_S1600000x1_0
    (select (cmpi .slt (srcVec e) (broadcastInDim S1600000 ![] bcast_S_S1600000 (constantI S_ 32 0#32)))
      (addi (srcVec e) (broadcastInDim S1600000 ![] bcast_S_S1600000 (constantI S_ 32 100000#32))) (srcVec e))

/-- Each node's in-degree: ones added up at the destinations. -/
def degs (e : IVec S2x1600000 32) : FVec Ideal S100000 .f32 :=
  Host.scatterAdd (F := Ideal) scatter_S100000_S1600000x1_S1600000_n_0_0_1
    (broadcastInDim S100000 ![] bcast_S_S100000 (constant (F := Ideal) S_ .f32 0x00000000#32)) (dstIx e)
    (broadcastInDim S1600000 ![] bcast_S_S1600000 (constant (F := Ideal) S_ .f32 0x3F800000#32))

/-- The degrees laid out as a column. -/
def degCol (dg : FVec Ideal S100000 .f32) : FVec Ideal S100000x1 .f32 :=
  shapeCast _ dg shapeCasts_S100000_S100000x1

/-- The neighbours' rows of a 128-feature array added up at each destination node. -/
def agg1 (x : FVec Ideal S100000x128 .f32) (e : IVec S2x1600000 32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32)) (dstIx e)
    (Host.gather gather_S100000x128_S1600000x1_S1600000x128_1_0_n_n_0_1_1128 x (srcIx e))

/-- The same for a 32-feature array. -/
def agg2 (h : FVec Ideal S100000x32 .f32) (e : IVec S2x1600000 32) : FVec Ideal S100000x32 .f32 :=
  Host.scatterAdd (F := Ideal) scatter_S100000x32_S1600000x1_S1600000x32_1_0_0_1
    (broadcastInDim S100000x32 ![] bcast_S_S100000x32 (constant (F := Ideal) S_ .f32 0x00000000#32)) (dstIx e)
    (Host.gather gather_S100000x32_S1600000x1_S1600000x32_1_0_n_n_0_1_132 h (srcIx e))

/-- The first layer's output from the arguments. -/
def hidden (x : FVec Ideal S100000x128 .f32) (e : IVec S2x1600000 32) (W1l : FVec Ideal S128x32 .f32)
    (b1 : FVec Ideal S32 .f32) (W1r : FVec Ideal S128x32 .f32) : FVec Ideal S100000x32 .f32 :=
  layer1 x (agg1 x e) (degCol (degs e)) W1l b1 W1r

/-- The whole result from the arguments: the second layer on the first layer's output. -/
def out (x : FVec Ideal S100000x128 .f32) (e : IVec S2x1600000 32) (W1l : FVec Ideal S128x32 .f32)
    (b1 : FVec Ideal S32 .f32) (W1r : FVec Ideal S128x32 .f32) (W2l : FVec Ideal S32x32 .f32)
    (b2 : FVec Ideal S32 .f32) (W2r : FVec Ideal S32x32 .f32) : FVec Ideal S100000x32 .f32 :=
  layer2 (hidden x e W1l b1 W1r) (agg2 (hidden x e W1l b1 W1r) e) (degCol (degs e)) W2l b2 W2r

end Cert.Sage

end
-- ==== Proof.Payload0.lean ====
/-
  The body of the first layer's kernel at one entry of its output block: the stored value at row `p`, column `q` is the
  layer's formula (`layerAt`) of the loaded blocks. The two matrix products into a zero accumulator are sums over
  the contracted axis; the roundings to bf16 are the identity on extended reals; the degree column is broadcast along
  the features and the bias row along the rows.
-/
import proofs.«137877_j34634616274989_1_alg».proof.Proof.Gen.KernelIdeal.Skeleton
import proofs.«137877_j34634616274989_1_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.Sage.Payload0

open Idealize.ShloMosaic Idealize.ShloMosaic.ValueIdx Cert.KernelIdeal Cert.KernelIdeal.Facts₀ Cert.KernelIdeal.Gen Cert.Sage

/-! ## The matrix product's operand indices

The product contracts the left operand's axis 1 with the right operand's axis 0; the left operand's axis 0 and the
right operand's axis 1 are the result's rows and columns. -/

/-- The left operand is read at the result's row … -/
theorem lhs_row (i : S5000x32.Idx) (c : dot_S5000x128_S128x32_S5000x32_1_0_0_1_n_n.contr.Idx) :
    (dot_S5000x128_S128x32_S5000x32_1_0_0_1_n_n.lhsIdx i c 0).val = (i 0).val := by
  unfold DotDims.lhsIdx
  rw [dif_neg (show ¬(0 : Fin S5000x128.rank) ∈ dot_S5000x128_S128x32_S5000x32_1_0_0_1_n_n.lhsBatch by decide), dif_pos (show (0 : Fin S5000x128.rank) ∈ dot_S5000x128_S128x32_S5000x32_1_0_0_1_n_n.lhsNonContracting by decide)]
  rfl
/-- … and at the contraction index along its columns. -/
theorem lhs_col (i : S5000x32.Idx) (c : dot_S5000x128_S128x32_S5000x32_1_0_0_1_n_n.contr.Idx) :
    (dot_S5000x128_S128x32_S5000x32_1_0_0_1_n_n.lhsIdx i c 1).val = (c ⟨0, by decide⟩).val :=
  dot_S5000x128_S128x32_S5000x32_1_0_0_1_n_n.lhsIdx_val_of_single rfl i c
/-- The right operand is read at the contraction index along its rows … -/
theorem rhs_row (i : S5000x32.Idx) (c : dot_S5000x128_S128x32_S5000x32_1_0_0_1_n_n.contr.Idx) :
    (dot_S5000x128_S128x32_S5000x32_1_0_0_1_n_n.rhsIdx i c 0).val = (c ⟨0, by decide⟩).val :=
  dot_S5000x128_S128x32_S5000x32_1_0_0_1_n_n.rhsIdx_val_of_single rfl i c
/-- … and at the result's column. -/
theorem rhs_col (i : S5000x32.Idx) (c : dot_S5000x128_S128x32_S5000x32_1_0_0_1_n_n.contr.Idx) :
    (dot_S5000x128_S128x32_S5000x32_1_0_0_1_n_n.rhsIdx i c 1).val = (i 1).val := by
  unfold DotDims.rhsIdx
  rw [dif_neg (show ¬(1 : Fin S128x32.rank) ∈ dot_S5000x128_S128x32_S5000x32_1_0_0_1_n_n.rhsBatch by decide), dif_pos (show (1 : Fin S128x32.rank) ∈ dot_S5000x128_S128x32_S5000x32_1_0_0_1_n_n.rhsNonContracting by decide)]
  rfl

/-- A matrix product into the zero accumulator, at row `p` and column `q`: the sum over the 128 contracted positions
    of the left operand's row `p` times the right operand's column `q`. -/
theorem matmul_at (lhs : FVec Ideal S5000x128 .bf16) (rhs : FVec Ideal S128x32 .bf16) (p : Fin 5000) (q : Fin 32) :
    matmul (F := Ideal) dot_S5000x128_S128x32_S5000x32_1_0_0_1_n_n none lhs rhs (constant (F := Ideal) S5000x32 .f32 0x00000000#32) (ix2 p q)
      = ∑ k : Fin 128, lhs (ix2 p k) * rhs (ix2 k q) := by
  show FloatOps.matmul dot_S5000x128_S128x32_S5000x32_1_0_0_1_n_n none lhs rhs (constant (F := Ideal) S5000x32 .f32 0x00000000#32) (ix2 p q) = _
  rw [Ideal.matmul_constant_zero_apply, ← Equiv.sum_comp (ValueIdx.contrEquiv1 dot_S5000x128_S128x32_S5000x32_1_0_0_1_n_n 128 rfl rfl).symm]
  refine Finset.sum_congr rfl fun k _ => ?_
  have hk := ValueIdx.contrEquiv1_symm_val dot_S5000x128_S128x32_S5000x32_1_0_0_1_n_n 128 rfl rfl k
  have el : dot_S5000x128_S128x32_S5000x32_1_0_0_1_n_n.lhsIdx (ix2 p q) ((ValueIdx.contrEquiv1 dot_S5000x128_S128x32_S5000x32_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x32_S5000x32_1_0_0_1_n_n.rhsIdx (ix2 p q) ((ValueIdx.contrEquiv1 dot_S5000x128_S128x32_S5000x32_1_0_0_1_n_n 128 rfl rfl).symm k) = ix2 k q := funext fun a => Fin.ext (by
    match a with
    | ⟨0, _⟩ => exact (rhs_row _ _).trans hk
    | ⟨1, _⟩ => exact rhs_col _ _)
  rw [el, er]

/-! ## The two broadcasts -/

/-- A column broadcast along the features reads, at `(p, k)`, the column's entry of row `p`. -/
theorem col_bcast_at (v : FVec Ideal S5000x1 .f32) (h : S5000x1.Broadcasts S5000x128) (p : Fin 5000) (k : Fin 128) :
    broadcastTo S5000x128 v h (ix2 p k) = v (ix2 p 0) := by
  refine broadcastTo_apply v h (ix2 p k) (ix2 p 0) fun a => ?_
  match a with
  | ⟨0, _⟩ =>
    show p.val = if (5000 : Nat) = 1 then 0 else p.val
    rw [if_neg (by decide)]
  | ⟨1, _⟩ =>
    show 0 = if (1 : Nat) = 1 then 0 else k.val
    rw [if_pos rfl]

/-- The bias laid out as one row and broadcast along the rows reads, at `(p, q)`, the bias at `q`. -/
theorem bias_at (b : FVec Ideal S32 .f32) (h1 : S32.ShapeCasts S1x32) (h2 : S1x32.Broadcasts S5000x32) (p : Fin 5000) (q : Fin 32) :
    broadcastTo S5000x32 (shapeCast S1x32 b h1) h2 (ix2 p q) = b (ix1 q) := by
  rw [broadcastTo_1b_ab_apply, shapeCast_a_1a_apply]

/-! ## The stored block -/

/-- The stored block at row `p`, column `q`. -/
theorem pay_apply (v0 : Vec Ideal S5000x1 .f32) (v4 v8 : Vec Ideal S5000x128 .f32) (v11 v13 : Vec Ideal S128x32 .f32) (v16 : Vec Ideal S32 .f32)
    (p : Fin 5000) (q : Fin 32) :
    k0_pay1 (F := Ideal) v0 v4 v8 v11 v13 v16 (ix2 p q) = layerAt v8 v4 (fun r => v0 (ix2 r 0)) v11 v13 v16 p q := by
  unfold k0_pay1
  rw [maximumf_apply, addf_apply, addf_apply, matmul_at, matmul_at, bias_at, broadcast_apply]
  unfold layerAt
  simp only [truncf_apply, divf_apply, shapeCast_self, col_bcast_at, maximumf_apply, broadcast_apply]
  rfl

end Cert.Sage.Payload0

end
-- ==== Proof.Region0.lean ====
/-
  The first layer's pallas_call as a whole-array function: after the run its output array holds `layer1` of the arrays
  the region found. Each grid point's output block is that function read through the point's rows: the input
  windows move with the output's along the rows, the weights and the bias stay put, and the blocks tile the array.
-/
import proofs.«137877_j34634616274989_1_alg».proof.Proof.Gen.KernelIdeal.Frame
import proofs.«137877_j34634616274989_1_alg».proof.Proof.Payload0
import Idealize.ShloMosaic.Lib.Pipeline.Value

noncomputable section

namespace Cert.Sage.Region0

open Idealize.ShloMosaic Idealize.ShloMosaic.TcCoe Idealize.ShloMosaic.ValueIdx Idealize.SL.Sem
open Idealize.ShloMosaic.Pipeline (Dat)
open Cert.KernelIdeal Cert.KernelIdeal.Facts₀ Cert.KernelIdeal.Gen Cert.Sage

variable (V : (c : Dev nD) → (b : Ref sig .tc) → Buf (Elt Ideal) ((c : Thread nD τ).loc b))

/-- The zero offsets of a rank-2 block, as the constant function. -/
theorem zero2 : (![0, 0] : Fin 2 → Nat) = fun _ => 0 := funext fun a => by fin_cases a <;> rfl
/-- The zero offset of a rank-1 block, as the constant function. -/
theorem zero1 : (![0] : Fin 1 → Nat) = fun _ => 0 := funext fun a => by fin_cases a; rfl

/-- The printed index maps, decided over the grid: the row windows sit at row block `t`, column block 0; the weights and the bias at block 0. -/
theorem index_facts : ∀ t : Fin cfg0.N,
    win0_0.index t (0 : Fin 2) = t.val ∧ win0_0.index t (1 : Fin 2) = 0
  ∧ win0_1.index t (0 : Fin 2) = t.val ∧ win0_1.index t (1 : Fin 2) = 0
  ∧ win0_2.index t (0 : Fin 2) = t.val ∧ win0_2.index t (1 : Fin 2) = 0
  ∧ win0_3.index t (0 : Fin 2) = 0 ∧ win0_3.index t (1 : Fin 2) = 0
  ∧ win0_4.index t (0 : Fin 1) = 0
  ∧ win0_5.index t (0 : Fin 2) = 0 ∧ win0_5.index t (1 : Fin 2) = 0
  ∧ win0_6.index t (0 : Fin 2) = t.val ∧ win0_6.index t (1 : Fin 2) = 0 :=
  (by decide +kernel : ∀ t : Fin grid0.N, _)

/-- Row `p` of the node-feature block at point `t` is row `5000 t + p` of the array. -/
theorem xblk_apply (c : Dev nD) (t : Fin cfg0.N) (p : Fin 5000) (k : Fin 128) (r : Fin 100000)
    (hr : r.val = 5000 * t.val + p.val) :
    (iblk0 (F := Ideal) V c 0 t : Vec Ideal S5000x128 .f32) (ix2 p k) = (V c main_arg0 : FVec Ideal S100000x128 .f32) (ix2 r k) := by
  obtain ⟨h0, h1, -⟩ := index_facts t
  unfold iblk0
  rw [View.read_apply]
  show V c main_arg0 _ = V c main_arg0 _
  congr 1
  funext a
  apply Fin.ext
  match a with
  | ⟨0, _⟩ => show win0_0.index t (0 : Fin 2) * 5000 + 1 * p.val = r.val; rw [h0, hr]; omega
  | ⟨1, _⟩ => show win0_0.index t (1 : Fin 2) * 128 + 1 * k.val = k.val; rw [h1]; omega

/-- The same for the block of neighbour sums. -/
theorem sblk_apply (c : Dev nD) (t : Fin cfg0.N) (p : Fin 5000) (k : Fin 128) (r : Fin 100000)
    (hr : r.val = 5000 * t.val + p.val) :
    (iblk0 (F := Ideal) V c 1 t : Vec Ideal S5000x128 .f32) (ix2 p k) = (V c main_v17 : FVec Ideal S100000x128 .f32) (ix2 r k) := by
  obtain ⟨-, -, h0, h1, -⟩ := index_facts t
  unfold iblk0
  rw [View.read_apply]
  show V c main_v17 _ = V c main_v17 _
  congr 1
  funext a
  apply Fin.ext
  match a with
  | ⟨0, _⟩ => show win0_1.index t (0 : Fin 2) * 5000 + 1 * p.val = r.val; rw [h0, hr]; omega
  | ⟨1, _⟩ => show win0_1.index t (1 : Fin 2) * 128 + 1 * k.val = k.val; rw [h1]; omega

/-- The same for the block of the degree column. -/
theorem dblk_apply (c : Dev nD) (t : Fin cfg0.N) (p : Fin 5000) (r : Fin 100000)
    (hr : r.val = 5000 * t.val + p.val) :
    (iblk0 (F := Ideal) V c 2 t : Vec Ideal S5000x1 .f32) (ix2 p 0) = (V c main_v18 : FVec Ideal S100000x1 .f32) (ix2 r 0) := by
  obtain ⟨-, -, -, -, h0, h1, -⟩ := index_facts t
  unfold iblk0
  rw [View.read_apply]
  show V c main_v18 _ = V c main_v18 _
  congr 1
  funext a
  apply Fin.ext
  match a with
  | ⟨0, _⟩ => show win0_2.index t (0 : Fin 2) * 5000 + 1 * p.val = r.val; rw [h0, hr]; omega
  | ⟨1, _⟩ => show win0_2.index t (1 : Fin 2) * 1 + 1 * 0 = 0; rw [h1]

/-- The left weights' block is the whole matrix at every point. -/
theorem wlblk_eq (c : Dev nD) (t : Fin cfg0.N) :
    (iblk0 (F := Ideal) V c 3 t : Vec Ideal S128x32 .f32) = (V c main_arg2 : FVec Ideal S128x32 .f32) := by
  obtain ⟨-, -, -, -, -, -, h0, h1, -⟩ := index_facts t
  funext j
  unfold iblk0
  rw [View.read_apply]
  show V c main_arg2 _ = V c main_arg2 _
  congr 1
  funext a
  apply Fin.ext
  match a with
  | ⟨0, _⟩ => show win0_3.index t (0 : Fin 2) * 128 + 1 * (j 0).val = (j 0).val; rw [h0]; omega
  | ⟨1, _⟩ => show win0_3.index t (1 : Fin 2) * 32 + 1 * (j 1).val = (j 1).val; rw [h1]; omega

/-- The bias block is the whole vector at every point. -/
theorem bblk_eq (c : Dev nD) (t : Fin cfg0.N) :
    (iblk0 (F := Ideal) V c 4 t : Vec Ideal S32 .f32) = (V c main_arg3 : FVec Ideal S32 .f32) := by
  obtain ⟨-, -, -, -, -, -, -, -, h0, -⟩ := index_facts t
  funext j
  unfold iblk0
  rw [View.read_apply]
  show V c main_arg3 _ = V c main_arg3 _
  congr 1
  funext a
  apply Fin.ext
  match a with
  | ⟨0, _⟩ => show win0_4.index t (0 : Fin 1) * 32 + 1 * (j 0).val = (j 0).val; rw [h0]; omega

/-- The right weights' block is the whole matrix at every point. -/
theorem wrblk_eq (c : Dev nD) (t : Fin cfg0.N) :
    (iblk0 (F := Ideal) V c 5 t : Vec Ideal S128x32 .f32) = (V c main_arg4 : FVec Ideal S128x32 .f32) := by
  obtain ⟨-, -, -, -, -, -, -, -, -, h0, h1, -⟩ := index_facts t
  funext j
  unfold iblk0
  rw [View.read_apply]
  show V c main_arg4 _ = V c main_arg4 _
  congr 1
  funext a
  apply Fin.ext
  match a with
  | ⟨0, _⟩ => show win0_5.index t (0 : Fin 2) * 128 + 1 * (j 0).val = (j 0).val; rw [h0]; omega
  | ⟨1, _⟩ => show win0_5.index t (1 : Fin 2) * 32 + 1 * (j 1).val = (j 1).val; rw [h1]; omega

/-- Entry `(p, q)` of the output block at point `t` sits at row `5000 t + p`, column `q` of the array. -/
theorem oblk_emb (t : Fin cfg0.N) (p : Fin 5000) (q : Fin 32) (r : Fin 100000) (hr : r.val = 5000 * t.val + p.val) :
    ((cfg0.win 6).blk t).view.emb (ix2 p q : S5000x32.Idx) = (ix2 r q : S100000x32.Idx) := by
  obtain ⟨-, -, -, -, -, -, -, -, -, -, -, h0, h1⟩ := index_facts t
  funext a
  apply Fin.ext
  match a with
  | ⟨0, _⟩ => show win0_6.index t (0 : Fin 2) * 5000 + 1 * p.val = r.val; rw [h0, hr]; omega
  | ⟨1, _⟩ => show win0_6.index t (1 : Fin 2) * 32 + 1 * q.val = q.val; rw [h1]; omega

/-- What point `t` writes back is block `t` of the first layer of the arrays the region found. -/
theorem flushed_eq (c : Dev nD) (t : Fin cfg0.N) :
    (dat0 (F := Ideal) V c).flushed 6 t = ((cfg0.win 6).blk t).view.read (Elt Ideal)
      (layer1 (V c main_arg0) (V c main_v17) (V c main_v18) (V c main_arg2) (V c main_arg3) (V c main_arg4)) := by
  show (cfg0.win 6).cut (grid0.coords t) ((dat0 (F := Ideal) V c).after 6 t) = _
  rw [after0_6]
  unfold out0_6
  rw [View.canon_unit_zero zero2]
  simp only [View.ld_unit_zero (S := S5000x1) zero2, View.ld_unit_zero (S := S5000x128) zero2, View.ld_unit_zero (S := S128x32) zero2, View.ld_unit_zero (S := S32) zero1]
  refine funext fun (j : S5000x32.Idx) => ?_
  obtain ⟨p, q, rfl⟩ : ∃ (p : Fin 5000) (q : Fin 32), j = ix2 p q := ⟨j 0, j 1, eq_ix2 j⟩
  have ht : t.val < 20 := t.isLt
  have hp : p.val < 5000 := p.isLt
  have hr : 5000 * t.val + p.val < 100000 := by omega
  refine (Payload0.pay_apply (iblk0 V c 2 t) (iblk0 V c 1 t) (iblk0 V c 0 t) (iblk0 V c 3 t) (iblk0 V c 5 t) (iblk0 V c 4 t) p q).trans ?_
  rw [View.read_apply, oblk_emb t p q ⟨5000 * t.val + p.val, hr⟩ rfl, wlblk_eq V c t, wrblk_eq V c t, bblk_eq V c t]
  show layerAt (N := 5000) (D := 128) (iblk0 V c 0 t) (iblk0 V c 1 t) (fun r => iblk0 V c 2 t (ix2 r 0)) (V c main_arg2) (V c main_arg4) (V c main_arg3) p q
     = layerAt (N := 100000) (D := 128) (V c main_arg0) (V c main_v17) (fun r => V c main_v18 (ix2 r 0)) (V c main_arg2) (V c main_arg4) (V c main_arg3) ⟨5000 * t.val + p.val, hr⟩ q
  exact layerAt_rows (N := 5000) (N' := 100000) (D := 128) (iblk0 V c 0 t) (iblk0 V c 1 t) (fun r => iblk0 V c 2 t (ix2 r 0))
    (V c main_arg0) (V c main_v17) (fun r => V c main_v18 (ix2 r 0)) (V c main_arg2) (V c main_arg4) (V c main_arg3) p ⟨5000 * t.val + p.val, hr⟩ q
    (fun k => xblk_apply V c t p k ⟨5000 * t.val + p.val, hr⟩ rfl) (fun k => sblk_apply V c t p k ⟨5000 * t.val + p.val, hr⟩ rfl)
    (dblk_apply V c t p ⟨5000 * t.val + p.val, hr⟩ rfl)

/-- An index of the output array is in point `t`'s block iff each coordinate is in the block's range on its axis. -/
theorem mem_blk (t : Fin cfg0.N) (i : S100000x32.Idx) :
    i ∈ ((cfg0.win 6).blk t).view.set ↔ ∀ a : Fin 2, win0_6.index t a * S5000x32.size a ≤ (i a).val ∧ (i a).val < win0_6.index t a * S5000x32.size a + S5000x32.size a := by
  show i ∈ ((View.whole main_v19).slice (win0_6.rect t)).set ↔ _
  rw [View.set_slice_whole, Rect.mem_set_unit]
  exact Iff.rfl

/-- Row `r` of the output array is in the block of point `r / 5000`: the blocks cover the array. -/
theorem cover (i : S100000x32.Idx) :
    ∃ t : Fin cfg0.N, (cfg0.win 6).flush t = true ∧ i ∈ ((cfg0.win 6).blk t).view.set := by
  have hi0 : (i 0).val < 100000 := (i 0).isLt
  have hi1 : (i 1).val < 32 := (i 1).isLt
  have hlt : (i 0).val / 5000 < 20 := by omega
  obtain ⟨-, -, -, -, -, -, -, -, -, -, -, h0, h1⟩ := index_facts ⟨(i 0).val / 5000, hlt⟩
  refine ⟨⟨(i 0).val / 5000, hlt⟩, flush0_6 _, ?_⟩
  rw [mem_blk]
  intro a
  match a with
  | ⟨0, _⟩ =>
    show win0_6.index ⟨(i 0).val / 5000, hlt⟩ (0 : Fin 2) * 5000 ≤ (i 0).val ∧ (i 0).val < win0_6.index ⟨(i 0).val / 5000, hlt⟩ (0 : Fin 2) * 5000 + 5000
    rw [h0]; show (i 0).val / 5000 * 5000 ≤ (i 0).val ∧ (i 0).val < (i 0).val / 5000 * 5000 + 5000; omega
  | ⟨1, _⟩ =>
    show win0_6.index ⟨(i 0).val / 5000, hlt⟩ (1 : Fin 2) * 32 ≤ (i 1).val ∧ (i 1).val < win0_6.index ⟨(i 0).val / 5000, hlt⟩ (1 : Fin 2) * 32 + 32
    rw [h1]; omega

/-- The output array after the region's run, from the contents `V` the region was entered with. -/
theorem final (c : Dev nD) :
    (dat0 (F := Ideal) V c).arrAt 6 cfg0.N = layer1 (V c main_arg0) (V c main_v17) (V c main_v18) (V c main_arg2) (V c main_arg3) (V c main_arg4) :=
  (dat0 (F := Ideal) V c).arrAt_eq_of_cover 6
    (layer1 (V c main_arg0) (V c main_v17) (V c main_v18) (V c main_arg2) (V c main_arg3) (V c main_arg4))
    (fun t _ => flushed_eq V c t) cover

end Cert.Sage.Region0

end
-- ==== Proof.Payload1.lean ====
/-
  The body of the second layer's kernel at one entry of its output block: the stored value at row `p`, column `q` is the
  layer's formula (`layerAt`) of the loaded blocks. The two matrix products into a zero accumulator are sums over
  the contracted axis; the roundings to bf16 are the identity on extended reals; the degree column is broadcast along
  the features and the bias row along the rows.
-/
import proofs.«137877_j34634616274989_1_alg».proof.Proof.Gen.KernelIdeal.Skeleton
import proofs.«137877_j34634616274989_1_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.Sage.Payload1

open Idealize.ShloMosaic Idealize.ShloMosaic.ValueIdx Cert.KernelIdeal Cert.KernelIdeal.Facts₀ Cert.KernelIdeal.Gen Cert.Sage

/-! ## The matrix product's operand indices

The product contracts the left operand's axis 1 with the right operand's axis 0; the left operand's axis 0 and the
right operand's axis 1 are the result's rows and columns. -/

/-- The left operand is read at the result's row … -/
theorem lhs_row (i : S10000x32.Idx) (c : dot_S10000x32_S32x32_S10000x32_1_0_0_1_n_n.contr.Idx) :
    (dot_S10000x32_S32x32_S10000x32_1_0_0_1_n_n.lhsIdx i c 0).val = (i 0).val := by
  unfold DotDims.lhsIdx
  rw [dif_neg (show ¬(0 : Fin S10000x32.rank) ∈ dot_S10000x32_S32x32_S10000x32_1_0_0_1_n_n.lhsBatch by decide), dif_pos (show (0 : Fin S10000x32.rank) ∈ dot_S10000x32_S32x32_S10000x32_1_0_0_1_n_n.lhsNonContracting by decide)]
  rfl
/-- … and at the contraction index along its columns. -/
theorem lhs_col (i : S10000x32.Idx) (c : dot_S10000x32_S32x32_S10000x32_1_0_0_1_n_n.contr.Idx) :
    (dot_S10000x32_S32x32_S10000x32_1_0_0_1_n_n.lhsIdx i c 1).val = (c ⟨0, by decide⟩).val :=
  dot_S10000x32_S32x32_S10000x32_1_0_0_1_n_n.lhsIdx_val_of_single rfl i c
/-- The right operand is read at the contraction index along its rows … -/
theorem rhs_row (i : S10000x32.Idx) (c : dot_S10000x32_S32x32_S10000x32_1_0_0_1_n_n.contr.Idx) :
    (dot_S10000x32_S32x32_S10000x32_1_0_0_1_n_n.rhsIdx i c 0).val = (c ⟨0, by decide⟩).val :=
  dot_S10000x32_S32x32_S10000x32_1_0_0_1_n_n.rhsIdx_val_of_single rfl i c
/-- … and at the result's column. -/
theorem rhs_col (i : S10000x32.Idx) (c : dot_S10000x32_S32x32_S10000x32_1_0_0_1_n_n.contr.Idx) :
    (dot_S10000x32_S32x32_S10000x32_1_0_0_1_n_n.rhsIdx i c 1).val = (i 1).val := by
  unfold DotDims.rhsIdx
  rw [dif_neg (show ¬(1 : Fin S32x32.rank) ∈ dot_S10000x32_S32x32_S10000x32_1_0_0_1_n_n.rhsBatch by decide), dif_pos (show (1 : Fin S32x32.rank) ∈ dot_S10000x32_S32x32_S10000x32_1_0_0_1_n_n.rhsNonContracting by decide)]
  rfl

/-- A matrix product into the zero accumulator, at row `p` and column `q`: the sum over the 32 contracted positions
    of the left operand's row `p` times the right operand's column `q`. -/
theorem matmul_at (lhs : FVec Ideal S10000x32 .bf16) (rhs : FVec Ideal S32x32 .bf16) (p : Fin 10000) (q : Fin 32) :
    matmul (F := Ideal) dot_S10000x32_S32x32_S10000x32_1_0_0_1_n_n none lhs rhs (constant (F := Ideal) S10000x32 .f32 0x00000000#32) (ix2 p q)
      = ∑ k : Fin 32, lhs (ix2 p k) * rhs (ix2 k q) := by
  show FloatOps.matmul dot_S10000x32_S32x32_S10000x32_1_0_0_1_n_n none lhs rhs (constant (F := Ideal) S10000x32 .f32 0x00000000#32) (ix2 p q) = _
  rw [Ideal.matmul_constant_zero_apply, ← Equiv.sum_comp (ValueIdx.contrEquiv1 dot_S10000x32_S32x32_S10000x32_1_0_0_1_n_n 32 rfl rfl).symm]
  refine Finset.sum_congr rfl fun k _ => ?_
  have hk := ValueIdx.contrEquiv1_symm_val dot_S10000x32_S32x32_S10000x32_1_0_0_1_n_n 32 rfl rfl k
  have el : dot_S10000x32_S32x32_S10000x32_1_0_0_1_n_n.lhsIdx (ix2 p q) ((ValueIdx.contrEquiv1 dot_S10000x32_S32x32_S10000x32_1_0_0_1_n_n 32 rfl rfl).symm k) = ix2 p k := funext fun a => Fin.ext (by
    match a with
    | ⟨0, _⟩ => exact lhs_row _ _
    | ⟨1, _⟩ => exact (lhs_col _ _).trans hk)
  have er : dot_S10000x32_S32x32_S10000x32_1_0_0_1_n_n.rhsIdx (ix2 p q) ((ValueIdx.contrEquiv1 dot_S10000x32_S32x32_S10000x32_1_0_0_1_n_n 32 rfl rfl).symm k) = ix2 k q := funext fun a => Fin.ext (by
    match a with
    | ⟨0, _⟩ => exact (rhs_row _ _).trans hk
    | ⟨1, _⟩ => exact rhs_col _ _)
  rw [el, er]

/-! ## The two broadcasts -/

/-- A column broadcast along the features reads, at `(p, k)`, the column's entry of row `p`. -/
theorem col_bcast_at (v : FVec Ideal S10000x1 .f32) (h : S10000x1.Broadcasts S10000x32) (p : Fin 10000) (k : Fin 32) :
    broadcastTo S10000x32 v h (ix2 p k) = v (ix2 p 0) := by
  refine broadcastTo_apply v h (ix2 p k) (ix2 p 0) fun a => ?_
  match a with
  | ⟨0, _⟩ =>
    show p.val = if (10000 : Nat) = 1 then 0 else p.val
    rw [if_neg (by decide)]
  | ⟨1, _⟩ =>
    show 0 = if (1 : Nat) = 1 then 0 else k.val
    rw [if_pos rfl]

/-- The bias laid out as one row and broadcast along the rows reads, at `(p, q)`, the bias at `q`. -/
theorem bias_at (b : FVec Ideal S32 .f32) (h1 : S32.ShapeCasts S1x32) (h2 : S1x32.Broadcasts S10000x32) (p : Fin 10000) (q : Fin 32) :
    broadcastTo S10000x32 (shapeCast S1x32 b h1) h2 (ix2 p q) = b (ix1 q) := by
  rw [broadcastTo_1b_ab_apply, shapeCast_a_1a_apply]

/-! ## The stored block -/

/-- The stored block at row `p`, column `q`. -/
theorem pay_apply (v0 : Vec Ideal S10000x1 .f32) (v4 v8 : Vec Ideal S10000x32 .f32) (v12 v14 : Vec Ideal S32x32 .f32) (v17 : Vec Ideal S32 .f32)
    (p : Fin 10000) (q : Fin 32) :
    k1_pay1 (F := Ideal) v0 v4 v8 v12 v14 v17 (ix2 p q) = layerAt v8 v4 (fun r => v0 (ix2 r 0)) v12 v14 v17 p q := by
  unfold k1_pay1
  rw [maximumf_apply, addf_apply, addf_apply, matmul_at, matmul_at, bias_at, broadcast_apply]
  unfold layerAt
  simp only [truncf_apply, divf_apply, shapeCast_self, col_bcast_at, maximumf_apply, broadcast_apply]
  rfl

end Cert.Sage.Payload1

end
-- ==== Proof.Region1.lean ====
/-
  The second layer's pallas_call as a whole-array function: after the run its output array holds `layer2` of the arrays
  the region found. Each grid point's output block is that function read through the point's rows: the input
  windows move with the output's along the rows, the weights and the bias stay put, and the blocks tile the array.
-/
import proofs.«137877_j34634616274989_1_alg».proof.Proof.Gen.KernelIdeal.Frame
import proofs.«137877_j34634616274989_1_alg».proof.Proof.Payload1
import Idealize.ShloMosaic.Lib.Pipeline.Value

noncomputable section

namespace Cert.Sage.Region1

open Idealize.ShloMosaic Idealize.ShloMosaic.TcCoe Idealize.ShloMosaic.ValueIdx Idealize.SL.Sem
open Idealize.ShloMosaic.Pipeline (Dat)
open Cert.KernelIdeal Cert.KernelIdeal.Facts₀ Cert.KernelIdeal.Gen Cert.Sage

variable (V : (c : Dev nD) → (b : Ref sig .tc) → Buf (Elt Ideal) ((c : Thread nD τ).loc b))

/-- The zero offsets of a rank-2 block, as the constant function. -/
theorem zero2 : (![0, 0] : Fin 2 → Nat) = fun _ => 0 := funext fun a => by fin_cases a <;> rfl
/-- The zero offset of a rank-1 block, as the constant function. -/
theorem zero1 : (![0] : Fin 1 → Nat) = fun _ => 0 := funext fun a => by fin_cases a; rfl

/-- The printed index maps, decided over the grid: the row windows sit at row block `t`, column block 0; the weights and the bias at block 0. -/
theorem index_facts : ∀ t : Fin cfg1.N,
    win1_0.index t (0 : Fin 2) = t.val ∧ win1_0.index t (1 : Fin 2) = 0
  ∧ win1_1.index t (0 : Fin 2) = t.val ∧ win1_1.index t (1 : Fin 2) = 0
  ∧ win1_2.index t (0 : Fin 2) = t.val ∧ win1_2.index t (1 : Fin 2) = 0
  ∧ win1_3.index t (0 : Fin 2) = 0 ∧ win1_3.index t (1 : Fin 2) = 0
  ∧ win1_4.index t (0 : Fin 1) = 0
  ∧ win1_5.index t (0 : Fin 2) = 0 ∧ win1_5.index t (1 : Fin 2) = 0
  ∧ win1_6.index t (0 : Fin 2) = t.val ∧ win1_6.index t (1 : Fin 2) = 0 :=
  (by decide +kernel : ∀ t : Fin grid1.N, _)

/-- Row `p` of the node-feature block at point `t` is row `10000 t + p` of the array. -/
theorem xblk_apply (c : Dev nD) (t : Fin cfg1.N) (p : Fin 10000) (k : Fin 32) (r : Fin 100000)
    (hr : r.val = 10000 * t.val + p.val) :
    (iblk1 (F := Ideal) V c 0 t : Vec Ideal S10000x32 .f32) (ix2 p k) = (V c main_v19 : FVec Ideal S100000x32 .f32) (ix2 r k) := by
  obtain ⟨h0, h1, -⟩ := index_facts t
  unfold iblk1
  rw [View.read_apply]
  show V c main_v19 _ = V c main_v19 _
  congr 1
  funext a
  apply Fin.ext
  match a with
  | ⟨0, _⟩ => show win1_0.index t (0 : Fin 2) * 10000 + 1 * p.val = r.val; rw [h0, hr]; omega
  | ⟨1, _⟩ => show win1_0.index t (1 : Fin 2) * 32 + 1 * k.val = k.val; rw [h1]; omega

/-- The same for the block of neighbour sums. -/
theorem sblk_apply (c : Dev nD) (t : Fin cfg1.N) (p : Fin 10000) (k : Fin 32) (r : Fin 100000)
    (hr : r.val = 10000 * t.val + p.val) :
    (iblk1 (F := Ideal) V c 1 t : Vec Ideal S10000x32 .f32) (ix2 p k) = (V c main_v29 : FVec Ideal S100000x32 .f32) (ix2 r k) := by
  obtain ⟨-, -, h0, h1, -⟩ := index_facts t
  unfold iblk1
  rw [View.read_apply]
  show V c main_v29 _ = V c main_v29 _
  congr 1
  funext a
  apply Fin.ext
  match a with
  | ⟨0, _⟩ => show win1_1.index t (0 : Fin 2) * 10000 + 1 * p.val = r.val; rw [h0, hr]; omega
  | ⟨1, _⟩ => show win1_1.index t (1 : Fin 2) * 32 + 1 * k.val = k.val; rw [h1]; omega

/-- The same for the block of the degree column. -/
theorem dblk_apply (c : Dev nD) (t : Fin cfg1.N) (p : Fin 10000) (r : Fin 100000)
    (hr : r.val = 10000 * t.val + p.val) :
    (iblk1 (F := Ideal) V c 2 t : Vec Ideal S10000x1 .f32) (ix2 p 0) = (V c main_v30 : FVec Ideal S100000x1 .f32) (ix2 r 0) := by
  obtain ⟨-, -, -, -, h0, h1, -⟩ := index_facts t
  unfold iblk1
  rw [View.read_apply]
  show V c main_v30 _ = V c main_v30 _
  congr 1
  funext a
  apply Fin.ext
  match a with
  | ⟨0, _⟩ => show win1_2.index t (0 : Fin 2) * 10000 + 1 * p.val = r.val; rw [h0, hr]; omega
  | ⟨1, _⟩ => show win1_2.index t (1 : Fin 2) * 1 + 1 * 0 = 0; rw [h1]

/-- The left weights' block is the whole matrix at every point. -/
theorem wlblk_eq (c : Dev nD) (t : Fin cfg1.N) :
    (iblk1 (F := Ideal) V c 3 t : Vec Ideal S32x32 .f32) = (V c main_arg5 : FVec Ideal S32x32 .f32) := by
  obtain ⟨-, -, -, -, -, -, h0, h1, -⟩ := index_facts t
  funext j
  unfold iblk1
  rw [View.read_apply]
  show V c main_arg5 _ = V c main_arg5 _
  congr 1
  funext a
  apply Fin.ext
  match a with
  | ⟨0, _⟩ => show win1_3.index t (0 : Fin 2) * 32 + 1 * (j 0).val = (j 0).val; rw [h0]; omega
  | ⟨1, _⟩ => show win1_3.index t (1 : Fin 2) * 32 + 1 * (j 1).val = (j 1).val; rw [h1]; omega

/-- The bias block is the whole vector at every point. -/
theorem bblk_eq (c : Dev nD) (t : Fin cfg1.N) :
    (iblk1 (F := Ideal) V c 4 t : Vec Ideal S32 .f32) = (V c main_arg6 : FVec Ideal S32 .f32) := by
  obtain ⟨-, -, -, -, -, -, -, -, h0, -⟩ := index_facts t
  funext j
  unfold iblk1
  rw [View.read_apply]
  show V c main_arg6 _ = V c main_arg6 _
  congr 1
  funext a
  apply Fin.ext
  match a with
  | ⟨0, _⟩ => show win1_4.index t (0 : Fin 1) * 32 + 1 * (j 0).val = (j 0).val; rw [h0]; omega

/-- The right weights' block is the whole matrix at every point. -/
theorem wrblk_eq (c : Dev nD) (t : Fin cfg1.N) :
    (iblk1 (F := Ideal) V c 5 t : Vec Ideal S32x32 .f32) = (V c main_arg7 : FVec Ideal S32x32 .f32) := by
  obtain ⟨-, -, -, -, -, -, -, -, -, h0, h1, -⟩ := index_facts t
  funext j
  unfold iblk1
  rw [View.read_apply]
  show V c main_arg7 _ = V c main_arg7 _
  congr 1
  funext a
  apply Fin.ext
  match a with
  | ⟨0, _⟩ => show win1_5.index t (0 : Fin 2) * 32 + 1 * (j 0).val = (j 0).val; rw [h0]; omega
  | ⟨1, _⟩ => show win1_5.index t (1 : Fin 2) * 32 + 1 * (j 1).val = (j 1).val; rw [h1]; omega

/-- Entry `(p, q)` of the output block at point `t` sits at row `10000 t + p`, column `q` of the array. -/
theorem oblk_emb (t : Fin cfg1.N) (p : Fin 10000) (q : Fin 32) (r : Fin 100000) (hr : r.val = 10000 * t.val + p.val) :
    ((cfg1.win 6).blk t).view.emb (ix2 p q : S10000x32.Idx) = (ix2 r q : S100000x32.Idx) := by
  obtain ⟨-, -, -, -, -, -, -, -, -, -, -, h0, h1⟩ := index_facts t
  funext a
  apply Fin.ext
  match a with
  | ⟨0, _⟩ => show win1_6.index t (0 : Fin 2) * 10000 + 1 * p.val = r.val; rw [h0, hr]; omega
  | ⟨1, _⟩ => show win1_6.index t (1 : Fin 2) * 32 + 1 * q.val = q.val; rw [h1]; omega

/-- What point `t` writes back is block `t` of the second layer of the arrays the region found. -/
theorem flushed_eq (c : Dev nD) (t : Fin cfg1.N) :
    (dat1 (F := Ideal) V c).flushed 6 t = ((cfg1.win 6).blk t).view.read (Elt Ideal)
      (layer2 (V c main_v19) (V c main_v29) (V c main_v30) (V c main_arg5) (V c main_arg6) (V c main_arg7)) := by
  show (cfg1.win 6).cut (grid1.coords t) ((dat1 (F := Ideal) V c).after 6 t) = _
  rw [after1_6]
  unfold out1_6
  rw [View.canon_unit_zero zero2]
  simp only [View.ld_unit_zero (S := S10000x1) zero2, View.ld_unit_zero (S := S10000x32) zero2, View.ld_unit_zero (S := S32x32) zero2, View.ld_unit_zero (S := S32) zero1]
  refine funext fun (j : S10000x32.Idx) => ?_
  obtain ⟨p, q, rfl⟩ : ∃ (p : Fin 10000) (q : Fin 32), j = ix2 p q := ⟨j 0, j 1, eq_ix2 j⟩
  have ht : t.val < 10 := t.isLt
  have hp : p.val < 10000 := p.isLt
  have hr : 10000 * t.val + p.val < 100000 := by omega
  refine (Payload1.pay_apply (iblk1 V c 2 t) (iblk1 V c 1 t) (iblk1 V c 0 t) (iblk1 V c 3 t) (iblk1 V c 5 t) (iblk1 V c 4 t) p q).trans ?_
  rw [View.read_apply, oblk_emb t p q ⟨10000 * t.val + p.val, hr⟩ rfl, wlblk_eq V c t, wrblk_eq V c t, bblk_eq V c t]
  show layerAt (N := 10000) (D := 32) (iblk1 V c 0 t) (iblk1 V c 1 t) (fun r => iblk1 V c 2 t (ix2 r 0)) (V c main_arg5) (V c main_arg7) (V c main_arg6) p q
     = layerAt (N := 100000) (D := 32) (V c main_v19) (V c main_v29) (fun r => V c main_v30 (ix2 r 0)) (V c main_arg5) (V c main_arg7) (V c main_arg6) ⟨10000 * t.val + p.val, hr⟩ q
  exact layerAt_rows (N := 10000) (N' := 100000) (D := 32) (iblk1 V c 0 t) (iblk1 V c 1 t) (fun r => iblk1 V c 2 t (ix2 r 0))
    (V c main_v19) (V c main_v29) (fun r => V c main_v30 (ix2 r 0)) (V c main_arg5) (V c main_arg7) (V c main_arg6) p ⟨10000 * t.val + p.val, hr⟩ q
    (fun k => xblk_apply V c t p k ⟨10000 * t.val + p.val, hr⟩ rfl) (fun k => sblk_apply V c t p k ⟨10000 * t.val + p.val, hr⟩ rfl)
    (dblk_apply V c t p ⟨10000 * t.val + p.val, hr⟩ rfl)

/-- An index of the output array is in point `t`'s block iff each coordinate is in the block's range on its axis. -/
theorem mem_blk (t : Fin cfg1.N) (i : S100000x32.Idx) :
    i ∈ ((cfg1.win 6).blk t).view.set ↔ ∀ a : Fin 2, win1_6.index t a * S10000x32.size a ≤ (i a).val ∧ (i a).val < win1_6.index t a * S10000x32.size a + S10000x32.size a := by
  show i ∈ ((View.whole main_v31).slice (win1_6.rect t)).set ↔ _
  rw [View.set_slice_whole, Rect.mem_set_unit]
  exact Iff.rfl

/-- Row `r` of the output array is in the block of point `r / 10000`: the blocks cover the array. -/
theorem cover (i : S100000x32.Idx) :
    ∃ t : Fin cfg1.N, (cfg1.win 6).flush t = true ∧ i ∈ ((cfg1.win 6).blk t).view.set := by
  have hi0 : (i 0).val < 100000 := (i 0).isLt
  have hi1 : (i 1).val < 32 := (i 1).isLt
  have hlt : (i 0).val / 10000 < 10 := by omega
  obtain ⟨-, -, -, -, -, -, -, -, -, -, -, h0, h1⟩ := index_facts ⟨(i 0).val / 10000, hlt⟩
  refine ⟨⟨(i 0).val / 10000, hlt⟩, flush1_6 _, ?_⟩
  rw [mem_blk]
  intro a
  match a with
  | ⟨0, _⟩ =>
    show win1_6.index ⟨(i 0).val / 10000, hlt⟩ (0 : Fin 2) * 10000 ≤ (i 0).val ∧ (i 0).val < win1_6.index ⟨(i 0).val / 10000, hlt⟩ (0 : Fin 2) * 10000 + 10000
    rw [h0]; show (i 0).val / 10000 * 10000 ≤ (i 0).val ∧ (i 0).val < (i 0).val / 10000 * 10000 + 10000; omega
  | ⟨1, _⟩ =>
    show win1_6.index ⟨(i 0).val / 10000, hlt⟩ (1 : Fin 2) * 32 ≤ (i 1).val ∧ (i 1).val < win1_6.index ⟨(i 0).val / 10000, hlt⟩ (1 : Fin 2) * 32 + 32
    rw [h1]; omega

/-- The output array after the region's run, from the contents `V` the region was entered with. -/
theorem final (c : Dev nD) :
    (dat1 (F := Ideal) V c).arrAt 6 cfg1.N = layer2 (V c main_v19) (V c main_v29) (V c main_v30) (V c main_arg5) (V c main_arg6) (V c main_arg7) :=
  (dat1 (F := Ideal) V c).arrAt_eq_of_cover 6
    (layer2 (V c main_v19) (V c main_v29) (V c main_v30) (V c main_arg5) (V c main_arg6) (V c main_arg7))
    (fun t _ => flushed_eq V c t) cover

end Cert.Sage.Region1

end
-- ==== Proof.HostK.lean ====
/-
  The arrays each pallas_call finds, as functions of the arguments. Before the first call the host has the
  neighbours' sums of `x` (`agg1`) and the degree column (`degCol (degs e)`) ready; between the calls it gathers and
  adds up the first call's output the same way (`agg2`) and lays the same degrees out again. The arguments pass
  through every stretch and both calls unchanged.
-/
import proofs.«137877_j34634616274989_1_alg».proof.Proof.Gen.KernelIdeal.Frame
import proofs.«137877_j34634616274989_1_alg».proof.Proof.Spec
import Idealize.ShloMosaic.Lib.StableHlo.Run

noncomputable section

namespace Cert.Sage.HostK

open Idealize.ShloMosaic Idealize.ShloMosaic.TcCoe Idealize.SL.Sem Idealize.ShloMosaic.StableHlo
open Cert.KernelIdeal Cert.KernelIdeal.Facts₀ Cert.KernelIdeal.Gen Cert.Sage

variable (m : (ℓ : Loc nD τ sig) → Buf (Elt Ideal) ℓ) (ρ : Dev nD → PrngReg)

/-! ## A buffer that a stretch of host operations does not write keeps its contents -/

/-- Every operation of a literal list writes its one result buffer; a buffer that is none of them is not written. -/
local macro "not_written" : tactic =>
  `(tactic| (
    refine List.forall_iff_forall_mem.mp ?_
    simp only [hostOps0, hostOps1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-! ## What the first call finds -/

theorem V1_arg0 (c : Dev nD) : V1 m ρ c main_arg0 = m ((c : Thread nD τ).loc main_arg0) :=
  calc V1 m ρ c main_arg0
    _ = W0 m ρ c (Proc.devRef .tc main_arg0) :=
          StableHlo.after_of_forall_not_mem (b := Proc.devRef .tc main_arg0) _ _ (by not_written)
    _ = m ((c : Thread nD τ).loc main_arg0) := rfl
theorem V1_arg2 (c : Dev nD) : V1 m ρ c main_arg2 = m ((c : Thread nD τ).loc main_arg2) :=
  calc V1 m ρ c main_arg2
    _ = W0 m ρ c (Proc.devRef .tc main_arg2) :=
          StableHlo.after_of_forall_not_mem (b := Proc.devRef .tc main_arg2) _ _ (by not_written)
    _ = m ((c : Thread nD τ).loc main_arg2) := rfl
theorem V1_arg3 (c : Dev nD) : V1 m ρ c main_arg3 = m ((c : Thread nD τ).loc main_arg3) :=
  calc V1 m ρ c main_arg3
    _ = W0 m ρ c (Proc.devRef .tc main_arg3) :=
          StableHlo.after_of_forall_not_mem (b := Proc.devRef .tc main_arg3) _ _ (by not_written)
    _ = m ((c : Thread nD τ).loc main_arg3) := rfl
theorem V1_arg4 (c : Dev nD) : V1 m ρ c main_arg4 = m ((c : Thread nD τ).loc main_arg4) :=
  calc V1 m ρ c main_arg4
    _ = W0 m ρ c (Proc.devRef .tc main_arg4) :=
          StableHlo.after_of_forall_not_mem (b := Proc.devRef .tc main_arg4) _ _ (by not_written)
    _ = m ((c : Thread nD τ).loc main_arg4) := rfl

/-- The neighbours' sums of the node features. -/
theorem V1_v17 (c : Dev nD) :
    V1 m ρ c main_v17 = agg1 (m ((c : Thread nD τ).loc main_arg0)) (m ((c : Thread nD τ).loc main_arg1)) := by
  show StableHlo.after hostOps0 (W0 m ρ c) (Proc.devRef .tc main_v17) = _
  after_results_simp
  unfold agg1 dstIx srcIx srcVec
  rfl
/-- The degree column. -/
theorem V1_v18 (c : Dev nD) : V1 m ρ c main_v18 = degCol (degs (m ((c : Thread nD τ).loc main_arg1))) := by
  show StableHlo.after hostOps0 (W0 m ρ c) (Proc.devRef .tc main_v18) = _
  after_results_simp
  unfold degCol degs dstIx
  rfl

/-! ## What the first stretch leaves for the second: the edge list's two rows and the degrees

The second stretch reads three buffers the first one wrote: the source nodes, the destination nodes and the degrees.
The first call touches none of them. -/

/-- The source nodes, as the first stretch leaves them. -/
private theorem W1_v1 (c : Dev nD) :
    (W1 m ρ c (Proc.devRef .tc main_v1) : IVec S1600000 32) = srcVec (m ((c : Thread nD τ).loc main_arg1)) := by
  show StableHlo.after hostOps0 (W0 m ρ c) (Proc.devRef .tc main_v1) = _
  after_results_simp
  unfold srcVec
  rfl
/-- The destination nodes, as the first stretch leaves them. -/
private theorem W1_v3 (c : Dev nD) :
    (W1 m ρ c (Proc.devRef .tc main_v3) : IVec S1600000 32)
      = shapeCast _ (extractStridedSlice S1x1600000 ![1, 0] (m ((c : Thread nD τ).loc main_arg1))
          Facts₀.slices_S2x1600000_S1x1600000_1_0) Facts₀.shapeCasts_S1x1600000_S1600000 := by
  show StableHlo.after hostOps0 (W0 m ρ c) (Proc.devRef .tc main_v3) = _
  after_results_simp
  rfl
/-- The degrees, as the first stretch leaves them. -/
private theorem W1_v7 (c : Dev nD) :
    (W1 m ρ c (Proc.devRef .tc main_v7) : FVec Ideal S100000 .f32) = degs (m ((c : Thread nD τ).loc main_arg1)) := by
  show StableHlo.after hostOps0 (W0 m ρ c) (Proc.devRef .tc main_v7) = _
  after_results_simp
  unfold degs dstIx
  rfl

private theorem W2_v1 (c : Dev nD) :
    (W2 m ρ c (Proc.devRef .tc main_v1) : IVec S1600000 32) = srcVec (m ((c : Thread nD τ).loc main_arg1)) :=
  (W2_of_ne m ρ c main_v1 (by decide)).trans (W1_v1 m ρ c)
private theorem W2_v3 (c : Dev nD) :
    (W2 m ρ c (Proc.devRef .tc main_v3) : IVec S1600000 32)
      = shapeCast _ (extractStridedSlice S1x1600000 ![1, 0] (m ((c : Thread nD τ).loc main_arg1))
          Facts₀.slices_S2x1600000_S1x1600000_1_0) Facts₀.shapeCasts_S1x1600000_S1600000 :=
  (W2_of_ne m ρ c main_v3 (by decide)).trans (W1_v3 m ρ c)
private theorem W2_v7 (c : Dev nD) :
    (W2 m ρ c (Proc.devRef .tc main_v7) : FVec Ideal S100000 .f32) = degs (m ((c : Thread nD τ).loc main_arg1)) :=
  (W2_of_ne m ρ c main_v7 (by decide)).trans (W1_v7 m ρ c)

/-! ## What the second call finds -/

/-- The second stretch does not write the first call's output array. -/
private theorem V3_v19_eq_W2 (c : Dev nD) : V3 m ρ c main_v19 = W2 m ρ c (Proc.devRef .tc main_v19) :=
  StableHlo.after_of_forall_not_mem (b := Proc.devRef .tc main_v19) _ _ (by not_written)

/-- The first call's output array, as that call left it. -/
theorem V3_v19 (c : Dev nD) : V3 m ρ c main_v19 = (dat0 (V1 m ρ) c).arrAt 6 cfg0.N :=
  (V3_v19_eq_W2 m ρ c).trans (W2_arr m ρ c 6)

/-- The neighbours' sums of the first call's output. -/
theorem V3_v29 (c : Dev nD) :
    V3 m ρ c main_v29 = agg2 (V3 m ρ c main_v19) (m ((c : Thread nD τ).loc main_arg1)) := by
  rw [V3_v19_eq_W2]
  show StableHlo.after hostOps1 (W2 m ρ c) (Proc.devRef .tc main_v29) = _
  after_results_simp
  rw [W2_v1, W2_v3]
  unfold agg2 dstIx srcIx
  rfl
/-- The degree column again. -/
theorem V3_v30 (c : Dev nD) : V3 m ρ c main_v30 = degCol (degs (m ((c : Thread nD τ).loc main_arg1))) := by
  show StableHlo.after hostOps1 (W2 m ρ c) (Proc.devRef .tc main_v30) = _
  after_results_simp
  rw [W2_v7]
  unfold degCol
  rfl

theorem V3_arg5 (c : Dev nD) : V3 m ρ c main_arg5 = m ((c : Thread nD τ).loc main_arg5) :=
  calc V3 m ρ c main_arg5
    _ = W2 m ρ c (Proc.devRef .tc main_arg5) :=
          StableHlo.after_of_forall_not_mem (b := Proc.devRef .tc main_arg5) _ _ (by not_written)
    _ = W1 m ρ c (Proc.devRef .tc main_arg5) := W2_of_ne m ρ c main_arg5 (by decide)
    _ = W0 m ρ c (Proc.devRef .tc main_arg5) :=
          StableHlo.after_of_forall_not_mem (b := Proc.devRef .tc main_arg5) _ _ (by not_written)
    _ = m ((c : Thread nD τ).loc main_arg5) := rfl
theorem V3_arg6 (c : Dev nD) : V3 m ρ c main_arg6 = m ((c : Thread nD τ).loc main_arg6) :=
  calc V3 m ρ c main_arg6
    _ = W2 m ρ c (Proc.devRef .tc main_arg6) :=
          StableHlo.after_of_forall_not_mem (b := Proc.devRef .tc main_arg6) _ _ (by not_written)
    _ = W1 m ρ c (Proc.devRef .tc main_arg6) := W2_of_ne m ρ c main_arg6 (by decide)
    _ = W0 m ρ c (Proc.devRef .tc main_arg6) :=
          StableHlo.after_of_forall_not_mem (b := Proc.devRef .tc main_arg6) _ _ (by not_written)
    _ = m ((c : Thread nD τ).loc main_arg6) := rfl
theorem V3_arg7 (c : Dev nD) : V3 m ρ c main_arg7 = m ((c : Thread nD τ).loc main_arg7) :=
  calc V3 m ρ c main_arg7
    _ = W2 m ρ c (Proc.devRef .tc main_arg7) :=
          StableHlo.after_of_forall_not_mem (b := Proc.devRef .tc main_arg7) _ _ (by not_written)
    _ = W1 m ρ c (Proc.devRef .tc main_arg7) := W2_of_ne m ρ c main_arg7 (by decide)
    _ = W0 m ρ c (Proc.devRef .tc main_arg7) :=
          StableHlo.after_of_forall_not_mem (b := Proc.devRef .tc main_arg7) _ _ (by not_written)
    _ = m ((c : Thread nD τ).loc main_arg7) := rfl

end Cert.Sage.HostK

end
-- ==== Proof.KValue.lean ====
/-
  The idealized kernel's result. The result array ends at the second call's output (the last boundary of @main);
  that call computes `layer2` of what it finds, which the host made from the first call's output `layer1` of what
  THAT call found, which the host made from the arguments: composed, `out` of the arguments.
-/
import proofs.«137877_j34634616274989_1_alg».proof.Proof.Region0
import proofs.«137877_j34634616274989_1_alg».proof.Proof.Region1
import proofs.«137877_j34634616274989_1_alg».proof.Proof.HostK
import proofs.«137877_j34634616274989_1_alg».proof.Proof.KRun

noncomputable section

namespace Cert.Sage.KValue

open Idealize.ShloMosaic Idealize.ShloMosaic.TcCoe Idealize.SL.Sem
open Cert.KernelIdeal Cert.KernelIdeal.Gen Cert.Sage

variable (m : (ℓ : Loc nD τ sig) → Buf (Elt Ideal) ℓ) (ρ : Dev nD → PrngReg)

/-- The first call's output array, as the second call finds it, is the first layer of the arguments. -/
theorem hidden_eq (c : Dev nD) :
    V3 m ρ c main_v19 = hidden (m ((c : Thread nD τ).loc main_arg0)) (m ((c : Thread nD τ).loc main_arg1))
      (m ((c : Thread nD τ).loc main_arg2)) (m ((c : Thread nD τ).loc main_arg3)) (m ((c : Thread nD τ).loc main_arg4)) := by
  rw [HostK.V3_v19, Region0.final (V1 m ρ) c, HostK.V1_arg0, HostK.V1_v17, HostK.V1_v18, HostK.V1_arg2, HostK.V1_arg3,
    HostK.V1_arg4]
  rfl

/-- The result array at the last boundary of @main is the two layers of the arguments. -/
theorem W4_v31 (c : Dev nD) :
    W4 m ρ c (Proc.devRef .tc main_v31) = out (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) := by
  refine (W4_arr m ρ c 6).trans ?_
  rw [Region1.final (V3 m ρ) c, HostK.V3_v29, HostK.V3_v30, hidden_eq, HostK.V3_arg5, HostK.V3_arg6, HostK.V3_arg7]
  rfl

/-- Every weakly fair execution of the idealized kernel's @main terminates with the result array at `out` of the
    arguments and the arguments unchanged. -/
theorem run : θ_run defs (onTc (τ := τ) (main (F := Ideal))) ⟨m, fun _ => 0, ρ⟩ (fun r => ∀ c : Dev nD,
      r.2.mem ((c.tc : Thread nD τ).loc main_v31) = out (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (W4_v31 m ρ c), (h c).2⟩) (Cert.KernelIdeal.RunValue.run_W4 m ρ)

end Cert.Sage.KValue

end
-- ==== Proof.RefValue.lean ====
/-
  The reference's result is `out` of its arguments. Read one operation at a time, the reference divides the
  neighbours' sums by the clipped degrees, multiplies by the left weights, adds the bias and the node's own product
  with the right weights, and clips at zero, twice; at an index that is `layerAt`. Its gathers and scatter-adds are
  the named host computations of the edge list, spelt the same.
-/
import proofs.«137877_j34634616274989_1_alg».proof.Proof.Gen.ReferenceIdeal.Run
import proofs.«137877_j34634616274989_1_alg».proof.Proof.Gen.ReferenceIdeal.Read
import proofs.«137877_j34634616274989_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.Sage.Ref

open Idealize.ShloMosaic Idealize.ShloMosaic.TcCoe Idealize.ShloMosaic.ValueIdx Idealize.SL.Sem
open Cert.Sage
open Cert.ReferenceIdeal.Read

/-! ## The edge list's host computations

The reference builds its gather and scatter indices from the edge list by the same slices, casts, wrap of negative
indices and broadcasts as `srcIx` and `dstIx`, and scatters into the same zero arrays: stage for stage the two
spellings have the same operations on the same operands, so each equation holds by reading both sides' definitions. -/

/-- The neighbours' 128-feature rows added up at each destination node. -/
theorem v13_eq (x0 : FVec Ideal Cert.KernelIdeal.S100000x128 .f32) (x1 : IVec Cert.KernelIdeal.S2x1600000 32) :
    val_main_v13 (F := Ideal) x0 x1 = agg1 x0 x1 := rfl

/-- The in-degrees, as the first layer computes them. -/
theorem v17_eq (x1 : IVec Cert.KernelIdeal.S2x1600000 32) :
    val_main_v17 (F := Ideal) x1 = degs x1 := rfl

/-- The in-degrees, as the second layer computes them again: the same vector. -/
theorem v43_eq (x1 : IVec Cert.KernelIdeal.S2x1600000 32) :
    val_main_v43 (F := Ideal) x1 = degs x1 := rfl

/-- The neighbours' 32-feature rows of the first layer's output added up at each destination node. -/
theorem v39_eq (x0 : FVec Ideal Cert.KernelIdeal.S100000x128 .f32) (x1 : IVec Cert.KernelIdeal.S2x1600000 32)
    (x2 : FVec Ideal Cert.KernelIdeal.S128x32 .f32) (x3 : FVec Ideal Cert.KernelIdeal.S32 .f32)
    (x4 : FVec Ideal Cert.KernelIdeal.S128x32 .f32) :
    val_main_v39 (F := Ideal) x0 x1 x2 x3 x4 = agg2 (val_main_v29 (F := Ideal) x0 x1 x2 x3 x4) x1 := rfl

/-! ## The specification at an index -/

/-- The degree column at row `r` is the degree vector at `r`: both sit at row-major position `r`. -/
theorem degCol_apply (dg : FVec Ideal Cert.KernelIdeal.S100000 .f32) (r : Fin 100000) :
    degCol dg (ix2 r (0 : Fin 1)) = dg (ix1 r) := by
  unfold degCol
  exact shapeCast_apply dg _ _ _ (by
    rw [Shape.rowMajor_val_one, Shape.rowMajor_val_two]
    show r.val = r.val * 1 + 0
    omega)

/-- The first layer's output at row `r`, column `j`, written out over the arguments. -/
theorem hidden_apply (x : FVec Ideal Cert.KernelIdeal.S100000x128 .f32) (e : IVec Cert.KernelIdeal.S2x1600000 32)
    (W1l : FVec Ideal Cert.KernelIdeal.S128x32 .f32) (b1 : FVec Ideal Cert.KernelIdeal.S32 .f32)
    (W1r : FVec Ideal Cert.KernelIdeal.S128x32 .f32) (r : Fin 100000) (j : Fin 32) :
    hidden x e W1l b1 W1r (ix2 r j)
      = max ((∑ k : Fin 128, Ideal.div (agg1 x e (ix2 r k)) (max (degs e (ix1 r)) (Ideal.ofBits .f32 0x3F800000#32))
                * W1l (ix2 k j))
              + b1 (ix1 j) + ∑ k : Fin 128, x (ix2 r k) * W1r (ix2 k j)) (Ideal.ofBits .f32 0x00000000#32) := by
  show layerAt x (agg1 x e) (fun r => degCol (degs e) (ix2 r 0)) W1l W1r b1 r j = _
  unfold layerAt
  simp only [degCol_apply]

/-- The result at row `r`, column `j`, written out over the first layer's output `hidden x e W1l b1 W1r`. -/
theorem out_apply (x : FVec Ideal Cert.KernelIdeal.S100000x128 .f32) (e : IVec Cert.KernelIdeal.S2x1600000 32)
    (W1l : FVec Ideal Cert.KernelIdeal.S128x32 .f32) (b1 : FVec Ideal Cert.KernelIdeal.S32 .f32)
    (W1r : FVec Ideal Cert.KernelIdeal.S128x32 .f32) (W2l : FVec Ideal Cert.KernelIdeal.S32x32 .f32)
    (b2 : FVec Ideal Cert.KernelIdeal.S32 .f32) (W2r : FVec Ideal Cert.KernelIdeal.S32x32 .f32)
    (r : Fin 100000) (j : Fin 32) :
    out x e W1l b1 W1r W2l b2 W2r (ix2 r j)
      = max ((∑ k : Fin 32, Ideal.div (agg2 (hidden x e W1l b1 W1r) e (ix2 r k))
                  (max (degs e (ix1 r)) (Ideal.ofBits .f32 0x3F800000#32)) * W2l (ix2 k j))
              + b2 (ix1 j) + ∑ k : Fin 32, hidden x e W1l b1 W1r (ix2 r k) * W2r (ix2 k j))
          (Ideal.ofBits .f32 0x00000000#32) := by
  show layerAt (hidden x e W1l b1 W1r) (agg2 (hidden x e W1l b1 W1r) e) (fun r => degCol (degs e) (ix2 r 0))
    W2l W2r b2 r j = _
  unfold layerAt
  simp only [degCol_apply]

/-! ## The first layer -/

/-- The reference's mean of the neighbours' rows at row `r`, feature `k`: the sum over the degree clipped below at
    one. The degree is broadcast along the row, so the divisor is read at `r` whatever `k`. -/
theorem v22_at (x0 : FVec Ideal Cert.KernelIdeal.S100000x128 .f32) (x1 : IVec Cert.KernelIdeal.S2x1600000 32)
    (r : Fin 100000) (k : Fin 128) :
    val_main_v22 (F := Ideal) x0 x1 (ix2 r k)
      = Ideal.div (agg1 x0 x1 (ix2 r k)) (max (degs x1 (ix1 r)) (Ideal.ofBits .f32 0x3F800000#32)) := by
  have hi : idx_main_v20 (idx_main_v21 (ix2 r k)) = ix1 r :=
    funext fun a => Fin.ext (by match a with | ⟨0, _⟩ => rfl)
  rw [val_main_v22_apply, val_main_v21_apply, val_main_v20_apply, hi, val_main_v19_apply, val_main_v18_apply,
    val_main_cst_3_apply, v13_eq, v17_eq]
  rfl

/-- The reference's first clipped stage is the first layer of its arguments. -/
theorem hidden_eq (x0 : FVec Ideal Cert.KernelIdeal.S100000x128 .f32) (x1 : IVec Cert.KernelIdeal.S2x1600000 32)
    (x2 : FVec Ideal Cert.KernelIdeal.S128x32 .f32) (x3 : FVec Ideal Cert.KernelIdeal.S32 .f32)
    (x4 : FVec Ideal Cert.KernelIdeal.S128x32 .f32) :
    val_main_v29 (F := Ideal) x0 x1 x2 x3 x4 = hidden x0 x1 x2 x3 x4 := by
  funext i
  obtain ⟨r, j, rfl⟩ : ∃ (r : Fin 100000) (j : Fin 32), i = ix2 r j := ⟨i 0, i 1, eq_ix2 i⟩
  -- where the two products and the bias read their operands at `(r, j)`
  have hl : ∀ k : Fin 128, lidx_main_v23 (ix2 r j) k = ix2 r k := fun k =>
    funext fun a => Fin.ext (by match a with | ⟨0, _⟩ => rfl | ⟨1, _⟩ => rfl)
  have hr : ∀ k : Fin 128, ridx_main_v23 (ix2 r j) k = ix2 k j := fun k =>
    funext fun a => Fin.ext (by match a with | ⟨0, _⟩ => rfl | ⟨1, _⟩ => rfl)
  have hl' : ∀ k : Fin 128, lidx_main_v27 (ix2 r j) k = ix2 r k := fun k =>
    funext fun a => Fin.ext (by match a with | ⟨0, _⟩ => rfl | ⟨1, _⟩ => rfl)
  have hr' : ∀ k : Fin 128, ridx_main_v27 (ix2 r j) k = ix2 k j := fun k =>
    funext fun a => Fin.ext (by match a with | ⟨0, _⟩ => rfl | ⟨1, _⟩ => rfl)
  have hb : idx_main_v24 (idx_main_v25 (ix2 r j)) = ix1 j :=
    funext fun a => Fin.ext (by match a with | ⟨0, _⟩ => rfl)
  rw [val_main_v29_apply, val_main_v28_apply, val_main_v26_apply, val_main_v23_apply, val_main_v25_apply,
    val_main_v24_apply, val_main_v27_apply, val_main_call0_v0_apply, val_main_call0_cst_apply, hb, hidden_apply]
  have h1 : (∑ k : Fin 128, val_main_v22 (F := Ideal) x0 x1 (lidx_main_v23 (ix2 r j) k) * x2 (ridx_main_v23 (ix2 r j) k))
      = ∑ k : Fin 128, Ideal.div (agg1 x0 x1 (ix2 r k)) (max (degs x1 (ix1 r)) (Ideal.ofBits .f32 0x3F800000#32))
          * x2 (ix2 k j) :=
    Finset.sum_congr rfl fun k _ => by rw [hl k, hr k, v22_at]
  have h2 : (∑ k : Fin 128, x0 (lidx_main_v27 (ix2 r j) k) * x4 (ridx_main_v27 (ix2 r j) k))
      = ∑ k : Fin 128, x0 (ix2 r k) * x4 (ix2 k j) :=
    Finset.sum_congr rfl fun k _ => by rw [hl' k, hr' k]
  rw [h1, h2]
  rfl

/-! ## The second layer -/

/-- The reference's mean of the neighbours' rows of the first layer's output at row `r`, feature `k`. -/
theorem v48_at (x0 : FVec Ideal Cert.KernelIdeal.S100000x128 .f32) (x1 : IVec Cert.KernelIdeal.S2x1600000 32)
    (x2 : FVec Ideal Cert.KernelIdeal.S128x32 .f32) (x3 : FVec Ideal Cert.KernelIdeal.S32 .f32)
    (x4 : FVec Ideal Cert.KernelIdeal.S128x32 .f32) (r : Fin 100000) (k : Fin 32) :
    val_main_v48 (F := Ideal) x0 x1 x2 x3 x4 (ix2 r k)
      = Ideal.div (agg2 (hidden x0 x1 x2 x3 x4) x1 (ix2 r k))
          (max (degs x1 (ix1 r)) (Ideal.ofBits .f32 0x3F800000#32)) := by
  have hi : idx_main_v46 (idx_main_v47 (ix2 r k)) = ix1 r :=
    funext fun a => Fin.ext (by match a with | ⟨0, _⟩ => rfl)
  rw [val_main_v48_apply, val_main_v47_apply, val_main_v46_apply, hi, val_main_v45_apply, val_main_v44_apply,
    val_main_cst_9_apply, v39_eq, hidden_eq, v43_eq]
  rfl

/-- The reference's last stage is the two layers of its arguments. -/
theorem out_eq (x0 : FVec Ideal Cert.KernelIdeal.S100000x128 .f32) (x1 : IVec Cert.KernelIdeal.S2x1600000 32)
    (x2 : FVec Ideal Cert.KernelIdeal.S128x32 .f32) (x3 : FVec Ideal Cert.KernelIdeal.S32 .f32)
    (x4 : FVec Ideal Cert.KernelIdeal.S128x32 .f32) (x5 : FVec Ideal Cert.KernelIdeal.S32x32 .f32)
    (x6 : FVec Ideal Cert.KernelIdeal.S32 .f32) (x7 : FVec Ideal Cert.KernelIdeal.S32x32 .f32) :
    val_main_v55 (F := Ideal) x0 x1 x2 x3 x4 x5 x6 x7 = out x0 x1 x2 x3 x4 x5 x6 x7 := by
  funext i
  obtain ⟨r, j, rfl⟩ : ∃ (r : Fin 100000) (j : Fin 32), i = ix2 r j := ⟨i 0, i 1, eq_ix2 i⟩
  have hl : ∀ k : Fin 32, lidx_main_v49 (ix2 r j) k = ix2 r k := fun k =>
    funext fun a => Fin.ext (by match a with | ⟨0, _⟩ => rfl | ⟨1, _⟩ => rfl)
  have hr : ∀ k : Fin 32, ridx_main_v49 (ix2 r j) k = ix2 k j := fun k =>
    funext fun a => Fin.ext (by match a with | ⟨0, _⟩ => rfl | ⟨1, _⟩ => rfl)
  have hl' : ∀ k : Fin 32, lidx_main_v53 (ix2 r j) k = ix2 r k := fun k =>
    funext fun a => Fin.ext (by match a with | ⟨0, _⟩ => rfl | ⟨1, _⟩ => rfl)
  have hr' : ∀ k : Fin 32, ridx_main_v53 (ix2 r j) k = ix2 k j := fun k =>
    funext fun a => Fin.ext (by match a with | ⟨0, _⟩ => rfl | ⟨1, _⟩ => rfl)
  have hb : idx_main_v50 (idx_main_v51 (ix2 r j)) = ix1 j :=
    funext fun a => Fin.ext (by match a with | ⟨0, _⟩ => rfl)
  rw [val_main_v55_apply, val_main_v54_apply, val_main_v52_apply, val_main_v49_apply, val_main_v51_apply,
    val_main_v50_apply, val_main_v53_apply, val_main_call1_v0_apply, val_main_call1_cst_apply, hb, out_apply]
  have h1 : (∑ k : Fin 32, val_main_v48 (F := Ideal) x0 x1 x2 x3 x4 (lidx_main_v49 (ix2 r j) k)
        * x5 (ridx_main_v49 (ix2 r j) k))
      = ∑ k : Fin 32, Ideal.div (agg2 (hidden x0 x1 x2 x3 x4) x1 (ix2 r k))
            (max (degs x1 (ix1 r)) (Ideal.ofBits .f32 0x3F800000#32)) * x5 (ix2 k j) :=
    Finset.sum_congr rfl fun k _ => by rw [hl k, hr k, v48_at]
  have h2 : (∑ k : Fin 32, val_main_v29 (F := Ideal) x0 x1 x2 x3 x4 (lidx_main_v53 (ix2 r j) k)
        * x7 (ridx_main_v53 (ix2 r j) k))
      = ∑ k : Fin 32, hidden x0 x1 x2 x3 x4 (ix2 r k) * x7 (ix2 k j) :=
    Finset.sum_congr rfl fun k _ => by rw [hl' k, hr' k, hidden_eq]
  rw [h1, h2]
  rfl

/-! ## The run's result -/

variable (m : (ℓ : Loc Cert.ReferenceIdeal.nD Cert.ReferenceIdeal.τ Cert.ReferenceIdeal.sig) → Buf (Elt Ideal) ℓ)

/-- The reference run's result term is the two layers of its arguments. -/
theorem res_eq (c : Dev Cert.ReferenceIdeal.nD) :
    Cert.ReferenceIdeal.Value.res_main_v55 (F := Ideal) m c
      = out (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg5))
          (m ((c.tc : Thread Cert.ReferenceIdeal.nD Cert.ReferenceIdeal.τ).loc Cert.ReferenceIdeal.main_arg6))
          (m ((c.tc : Thread Cert.ReferenceIdeal.nD Cert.ReferenceIdeal.τ).loc Cert.ReferenceIdeal.main_arg7)) :=
  (val_main_v55_eq (F := Ideal) m c).trans (out_eq _ _ _ _ _ _ _ _)

end Cert.Sage.Ref

end
-- ==== Proof.lean ====
/-
  A two-layer graph convolution with mean aggregation (GraphSAGE) on 100000 nodes and 1600000 edges. Each layer is
      relu( (sum of the neighbours' rows / max(in-degree, 1)) · Wl  +  b  +  x · Wr ).
  The kernel leaves the gather of the neighbours' rows and their scatter-add at the destination nodes on the host and
  runs the dense part of each layer as a pallas_call over blocks of rows (5000 rows a block in the first layer, 10000
  in the second), the operands rounded to bf16 before the two matrix products; the reference is the same formula in
  plain jnp. On extended reals the roundings are the identity and a matrix product is a finite sum over the
  contracted axis on both sides, so both programs compute, at every row and column, the value `Cert.Sage.layerAt`:
  no algebraic law is needed beyond reading the two texts at an index, and the finiteness of the inputs is not used.

  * `Spec`: the layer at an index, the two layers on whole arrays, the host computations of the edge list by name.
  * `Payload0/1`: each kernel body's stored block at an entry is the layer's formula of the loaded blocks.
  * `Region0/1`: so each pallas_call's output array is the layer of the arrays it finds (the blocks tile the rows).
  * `HostK`: the arrays each call finds, as the named host computations of the arguments and of the first call's output.
  * `KRun`, `KValue`: the kernel's run with its result array named; composed, it is `out` of the arguments.
  * `RefValue`: the reference's result term is `out` of its arguments.
  The frames of the two kernel programs are the generated ones; the reference's is its generated run.
-/
import proofs.«137877_j34634616274989_1_alg».proof.Defs
import proofs.«137877_j34634616274989_1_alg».proof.Proof.Gen.Kernel
import proofs.«137877_j34634616274989_1_alg».proof.Proof.Gen.Kernel.Skeleton
import proofs.«137877_j34634616274989_1_alg».proof.Proof.Gen.Kernel.Launch
import proofs.«137877_j34634616274989_1_alg».proof.Proof.Gen.Kernel.Points
import proofs.«137877_j34634616274989_1_alg».proof.Proof.Gen.Kernel.Frame
import proofs.«137877_j34634616274989_1_alg».proof.Proof.Gen.KernelIdeal
import proofs.«137877_j34634616274989_1_alg».proof.Proof.Gen.KernelIdeal.Skeleton
import proofs.«137877_j34634616274989_1_alg».proof.Proof.Gen.KernelIdeal.Launch
import proofs.«137877_j34634616274989_1_alg».proof.Proof.Gen.KernelIdeal.Points
import proofs.«137877_j34634616274989_1_alg».proof.Proof.Gen.KernelIdeal.Frame
import proofs.«137877_j34634616274989_1_alg».proof.Proof.Gen.ReferenceIdeal
import proofs.«137877_j34634616274989_1_alg».proof.Proof.Gen.Pre_finite_inputs
import proofs.«137877_j34634616274989_1_alg».proof.Proof.Gen.ReferenceIdeal.Run
import proofs.«137877_j34634616274989_1_alg».proof.Proof.Gen.ReferenceIdeal.Read
import proofs.«137877_j34634616274989_1_alg».proof.Proof.KValue
import proofs.«137877_j34634616274989_1_alg».proof.Proof.RefValue
import Idealize.ShloMosaic.Adequacy
import Idealize.ShloMosaic.Init

noncomputable section

namespace Cert.Proof

open Idealize.ShloMosaic Idealize.SL.Sem

/-- The word-level kernel runs and leaves its arguments alone: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments, the idealized kernel's result array and the reference's both end at
    `Cert.Sage.out` of those arguments. -/
theorem algebraic : Cert.algebraic_KernelIdeal_ReferenceIdeal := by
  intro m ρ m' ρ' _ hagree
  refine ⟨_, Cert.Sage.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.Sage.Ref.res_eq m' c]
  obtain ⟨e0, e1, e2, e3, e4, e5, e6, e7⟩ := hagree c
  rw [e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
